-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S8x2048x5504 : Shape := ⟨3, ![8, 2048, 5504]⟩
abbrev S8x5504x2048 : Shape := ⟨3, ![8, 5504, 2048]⟩
abbrev S8 : Shape := ⟨1, ![8]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S8x2048x5504 : S_.BroadcastsInDim S8x2048x5504 (![] : Fin 0 → Fin S8x2048x5504.rank)
  reducesTo_S8x2048x5504_S_d0_1_2 : S8x2048x5504.ReducesTo [0, 1, 2] S_
  bcast_S_S8x5504x2048 : S_.BroadcastsInDim S8x5504x2048 (![] : Fin 0 → Fin S8x5504x2048.rank)
  reducesTo_S8x5504x2048_S_d0_1_2 : S8x5504x2048.ReducesTo [0, 1, 2] S_

variable [Facts]

def fn_part1 {F : FTy → Type} [FloatOps F] (main_v13 : IVec S_ 1) (main_v16 : IVec S8x5504x2048 1) : IVec S_ 1 :=
  let main_c_5 : IVec S_ 1 := constantI S_ 1 1#1
  let main_v17 : IVec S_ 1 := (fun x v => Host.reduce IntOp.andi x v reducesTo_S8x5504x2048_S_d0_1_2 h_S_) main_v16 main_c_5
  let main_v18 : IVec S_ 1 := andi main_v13 main_v17
  main_v18

def fn {F : FTy → Type} [FloatOps F] (main_arg0 : FVec F S16384x2048 .f32) (main_arg1 : FVec F S8x2048x5504 .f32) (main_arg2 : FVec F S8x2048x5504 .f32) (main_arg3 : FVec F S8x5504x2048 .f32) (main_arg4 : IVec S8 32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S8x2048x5504 .f32 := Host.absf main_arg1
  let main_cst_0 : FVec F S_ .f32 := constant S_ .f32 0x7F800000#32
  let main_v5 : FVec F S8x2048x5504 .f32 := broadcastInDim S8x2048x5504 ![] bcast_S_S8x2048x5504 main_cst_0
  let main_v6 : IVec S8x2048x5504 1 := cmpf .olt main_v4 main_v5
  let main_c_1 : IVec S_ 1 := constantI S_ 1 1#1
  let main_v7 : IVec S_ 1 := (fun x v => Host.reduce IntOp.andi x v reducesTo_S8x2048x5504_S_d0_1_2 h_S_) main_v6 main_c_1
  let main_v8 : IVec S_ 1 := andi main_v3 main_v7
  let main_v9 : FVec F S8x2048x5504 .f32 := Host.absf main_arg2
  let main_cst_2 : FVec F S_ .f32 := constant S_ .f32 0x7F800000#32
  let main_v10 : FVec F S8x2048x5504 .f32 := broadcastInDim S8x2048x5504 ![] bcast_S_S8x2048x5504 main_cst_2
  let main_v11 : IVec S8x2048x5504 1 := cmpf .olt main_v9 main_v10
  let main_c_3 : IVec S_ 1 := constantI S_ 1 1#1
  let main_v12 : IVec S_ 1 := (fun x v => Host.reduce IntOp.andi x v reducesTo_S8x2048x5504_S_d0_1_2 h_S_) main_v11 main_c_3
  let main_v13 : IVec S_ 1 := andi main_v8 main_v12
  let main_v14 : FVec F S8x5504x2048 .f32 := Host.absf main_arg3
  let main_cst_4 : FVec F S_ .f32 := constant S_ .f32 0x7F800000#32
  let main_v15 : FVec F S8x5504x2048 .f32 := broadcastInDim S8x5504x2048 ![] bcast_S_S8x5504x2048 main_cst_4
  let main_v16 : IVec S8x5504x2048 1 := cmpf .olt main_v14 main_v15
  fn_part1 (F := F) main_v13 main_v16
-- ==== Kernel.lean ====
abbrev S16384x2048 : Shape := ⟨2, ![16384, 2048]⟩
abbrev S8x2048x5504 : Shape := ⟨3, ![8, 2048, 5504]⟩
abbrev S8x5504x2048 : Shape := ⟨3, ![8, 5504, 2048]⟩
abbrev S8 : Shape := ⟨1, ![8]⟩
abbrev S8x2048x2048 : Shape := ⟨3, ![8, 2048, 2048]⟩
abbrev S_ : Shape := ⟨0, ![]⟩
abbrev S8x2048x5632 : Shape := ⟨3, ![8, 2048, 5632]⟩
abbrev S8x5632x2048 : Shape := ⟨3, ![8, 5632, 2048]⟩
abbrev S1x512x2048 : Shape := ⟨3, ![1, 512, 2048]⟩
abbrev S1x2048x512 : Shape := ⟨3, ![1, 2048, 512]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 21
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S8x2048x5504, .f32⟩
  | .hbm, ⟨2, _⟩ => ⟨S8x2048x5504, .f32⟩
  | .hbm, ⟨3, _⟩ => ⟨S8x5504x2048, .f32⟩
  | .hbm, ⟨4, _⟩ => ⟨S8, .i32⟩
  | .hbm, ⟨5, _⟩ => ⟨S8x2048x2048, .f32⟩
  | .hbm, ⟨6, _⟩ => ⟨S8x2048x2048, .bf16⟩
  | .hbm, ⟨7, _⟩ => ⟨S_, .i32⟩
  | .hbm, ⟨8, _⟩ => ⟨S_, .f32⟩
  | .hbm, ⟨9, _⟩ => ⟨S8x2048x5632, .f32⟩
  | .hbm, ⟨10, _⟩ => ⟨S8x2048x5632, .bf16⟩
  | .hbm, ⟨11, _⟩ => ⟨S_, .i32⟩
  | .hbm, ⟨12, _⟩ => ⟨S_, .f32⟩
  | .hbm, ⟨13, _⟩ => ⟨S8x2048x5632, .f32⟩
  | .hbm, ⟨14, _⟩ => ⟨S8x2048x5632, .bf16⟩
  | .hbm, ⟨15, _⟩ => ⟨S_, .i32⟩
  | .hbm, ⟨16, _⟩ => ⟨S_, .f32⟩
  | .hbm, ⟨17, _⟩ => ⟨S8x5632x2048, .f32⟩
  | .hbm, ⟨18, _⟩ => ⟨S8x5632x2048, .bf16⟩
  | .hbm, ⟨19, _⟩ => ⟨S8x2048x2048, .f32⟩
  | .hbm, ⟨20, _⟩ => ⟨S16384x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x512x2048, .bf16⟩
  | .local _ .vmem, ⟨7, _⟩ => ⟨S1x512x2048, .bf16⟩
  | .local _ .vmem, ⟨8, _⟩ => ⟨S1x512x2048, .f32⟩
  | .local _ .vmem, ⟨9, _⟩ => ⟨S1x512x2048, .f32⟩
  | .local _ .vmem, ⟨10, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_call1_v0 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_call2_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 11], ![false, false, false]⟩

def k0_cond2 (i : grid0.Coords) : BitVec 1 :=
  let arg2 : BitVec 32 := BitVec.ofNat 32 (i 2).val
  let c10_i32 : BitVec 32 := 10#32
  let v23 : BitVec 1 := Scalar.cmpi .eq arg2 c10_i32
  let v24 : BitVec 32 := Scalar.extui v23
  let c0_i32_18 : BitVec 32 := 0#32
  let v25 : BitVec 1 := Scalar.cmpi .ne v24 c0_i32_18
  v25

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S16384x2048_S8x2048x2048 : S16384x2048.ShapeCasts S8x2048x2048
  bitsLt_bf16_f32 : FTy.bits .bf16 < FTy.bits .f32
  pads_S8x2048x5504_S8x2048x5632_000_000_01280 : S8x2048x5504.Pads (![0, 0, 0] : Fin 3 → Nat) ![0, 0, 128] ![0, 0, 0] S8x2048x5632
  h_S_ : 0 < S_.numel
  pads_S8x5504x2048_S8x5632x2048_000_01280_000 : S8x5504x2048.Pads (![0, 0, 0] : Fin 3 → Nat) ![0, 128, 0] ![0, 0, 0] S8x5632x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  shapeCasts_S512x2048_S1x512x2048 : S512x2048.ShapeCasts S1x512x2048
  shapeCasts_S8x2048x2048_S16384x2048 : S8x2048x2048.ShapeCasts S16384x2048
  dot_S512x2048_S2048x512_S512x512_1_0_0_1_n_n_wf : DotDims.WF S512x2048 S2048x512 S512x512 [1] [0] [0] [1] [] []
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S8x2048x2048.size a
  hwx0_0 : ∀ i : grid0.Coords, EltTy.bits .bf16 = 32 ∨ (Rect.block (s := S8x2048x2048) S1x512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S8x2048x5632.size a
  hwx0_1 : ∀ i : grid0.Coords, EltTy.bits .bf16 = 32 ∨ (Rect.block (s := S8x2048x5632) S1x2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x512.size a ≤ S8x2048x5632.size a
  hwx0_2 : ∀ i : grid0.Coords, EltTy.bits .bf16 = 32 ∨ (Rect.block (s := S8x2048x5632) S1x2048x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S8x5632x2048.size a
  hwx0_3 : ∀ i : grid0.Coords, EltTy.bits .bf16 = 32 ∨ (Rect.block (s := S8x5632x2048) S1x512x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S8x2048x2048.size a
  hwx0_4 : ∀ i : grid0.Coords, EltTy.bits .f32 = 32 ∨ (Rect.block (s := S8x2048x2048) S1x512x2048.size (cc0_transform_4 i) (hinb0_4 i)).WholeWords (EltTy.packing .f32)

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_v1) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384x2048 : Shape := ⟨2, ![16384, 2048]⟩
abbrev S8x2048x5504 : Shape := ⟨3, ![8, 2048, 5504]⟩
abbrev S8x5504x2048 : Shape := ⟨3, ![8, 5504, 2048]⟩
abbrev S8 : Shape := ⟨1, ![8]⟩
abbrev S8x2048x2048 : Shape := ⟨3, ![8, 2048, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S8x2048x5504, .f32⟩
  | .hbm, ⟨2, _⟩ => ⟨S8x2048x5504, .f32⟩
  | .hbm, ⟨3, _⟩ => ⟨S8x5504x2048, .f32⟩
  | .hbm, ⟨4, _⟩ => ⟨S8, .i32⟩
  | .hbm, ⟨5, _⟩ => ⟨S8x2048x2048, .f32⟩
  | .hbm, ⟨6, _⟩ => ⟨S8x2048x5504, .f32⟩
  | .hbm, ⟨7, _⟩ => ⟨S8x2048x5504, .f32⟩
  | .hbm, ⟨8, _⟩ => ⟨S8x2048x5504, .f32⟩
  | .hbm, ⟨9, _⟩ => ⟨S8x2048x5504, .f32⟩
  | .hbm, ⟨10, _⟩ => ⟨S_, .f32⟩
  | .hbm, ⟨11, _⟩ => ⟨S8x2048x5504, .f32⟩
  | .hbm, ⟨12, _⟩ => ⟨S8x2048x5504, .f32⟩
  | .hbm, ⟨13, _⟩ => ⟨S_, .f32⟩
  | .hbm, ⟨14, _⟩ => ⟨S8x2048x5504, .f32⟩
  | .hbm, ⟨15, _⟩ => ⟨S8x2048x5504, .f32⟩
  | .hbm, ⟨16, _⟩ => ⟨S8x2048x5504, .f32⟩
  | .hbm, ⟨17, _⟩ => ⟨S8x2048x5504, .f32⟩
  | .hbm, ⟨18, _⟩ => ⟨S8x2048x2048, .f32⟩
  | .hbm, ⟨19, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩

abbrev nD : Nat := 1
abbrev τ : Topo := Topo.v7x

variable {F : FTy → Type} [FloatOps F]

class Facts₀ : Prop where
  shapeCasts_S16384x2048_S8x2048x2048 : S16384x2048.ShapeCasts S8x2048x2048
  bcast_S_S8x2048x5504 : S_.BroadcastsInDim S8x2048x5504 (![] : Fin 0 → Fin S8x2048x5504.rank)
  shapeCasts_S8x2048x2048_S16384x2048 : S8x2048x2048.ShapeCasts S16384x2048
  dot_S8x2048x2048_S8x2048x5504_S8x2048x5504_2_1_1_2_0_0_wf : DotDims.WF S8x2048x2048 S8x2048x5504 S8x2048x5504 [2] [1] [1] [2] [0] [0]
  dot_S8x2048x5504_S8x5504x2048_S8x2048x2048_2_1_1_2_0_0_wf : DotDims.WF S8x2048x5504 S8x5504x2048 S8x2048x2048 [2] [1] [1] [2] [0] [0]

variable [Facts₀]

def dot_S8x2048x2048_S8x2048x5504_S8x2048x5504_2_1_1_2_0_0 : DotDims S8x2048x2048 S8x2048x5504 S8x2048x5504 where
  lhsContracting := [2]
  rhsContracting := [1]
  lhsNonContracting := [1]
  rhsNonContracting := [2]
  lhsBatch := [0]
  rhsBatch := [0]
  wf := dot_S8x2048x2048_S8x2048x5504_S8x2048x5504_2_1_1_2_0_0_wf
def dot_S8x2048x5504_S8x5504x2048_S8x2048x2048_2_1_1_2_0_0 : DotDims S8x2048x5504 S8x5504x2048 S8x2048x2048 where
  lhsContracting := [2]
  rhsContracting := [1]
  lhsNonContracting := [1]
  rhsNonContracting := [2]
  lhsBatch := [0]
  rhsBatch := [0]
  wf := dot_S8x2048x5504_S8x5504x2048_S8x2048x2048_2_1_1_2_0_0_wf

class Facts : Prop extends Facts₀ where

variable [Facts]
-- ==== Proof.SwigluSum.lean ====
/-
  The mathematics of the grouped SwiGLU projection, free of any program.

  For one expert and one token the result at hidden coordinate h is
      Σ_i  gate(g_i, u_i) · d_i ,   g_i = Σ_k x_k · wg(k,i) ,   u_i = Σ_k x_k · wu(k,i) ,
  with gate(g,u) = (g · σ(g)) · u and σ the logistic function.  The sum over the intermediate axis i may be
  taken tile by tile (512 coordinates at a time) and over an axis extended by coordinates whose weights vanish:
  on the extended reals addition is associative and commutative and a zero factor annihilates, so neither
  change needs the summands to be finite.

  Arrays are read at natural-number coordinates (zero outside their extents) so that every statement about
  offsets is plain arithmetic.
-/
import Idealize.ShloMosaic.PureOps.Ideal
import Idealize.ShloMosaic.Lib.ValueIdx

noncomputable section

namespace Cert.Swiglu

open Idealize.ShloMosaic Idealize.ShloMosaic.ValueIdx

/-- An entry of a matrix by natural-number coordinates; zero outside the matrix. -/
def at2 {a b : ℕ} (A : (⟨2, ![a, b]⟩ : Shape).Idx → EReal) (i j : ℕ) : EReal :=
  if h : i < a ∧ j < b then A (ix2 ⟨i, h.1⟩ ⟨j, h.2⟩) else 0

/-- An entry of a rank-3 array by natural-number coordinates; zero outside the array. -/
def at3 {a b c : ℕ} (A : (⟨3, ![a, b, c]⟩ : Shape).Idx → EReal) (i j k : ℕ) : EReal :=
  if h : i < a ∧ j < b ∧ k < c then A (ix3 ⟨i, h.1⟩ ⟨j, h.2.1⟩ ⟨k, h.2.2⟩) else 0

theorem at2_fin {a b : ℕ} (A : (⟨2, ![a, b]⟩ : Shape).Idx → EReal) (i : Fin a) (j : Fin b) :
    at2 A i.val j.val = A (ix2 i j) := by
  unfold at2; rw [dif_pos ⟨i.isLt, j.isLt⟩]

theorem at3_fin {a b c : ℕ} (A : (⟨3, ![a, b, c]⟩ : Shape).Idx → EReal) (i : Fin a) (j : Fin b) (k : Fin c) :
    at3 A i.val j.val k.val = A (ix3 i j k) := by
  unfold at3; rw [dif_pos ⟨i.isLt, j.isLt, k.isLt⟩]

theorem at2_of_lt {a b : ℕ} (A : (⟨2, ![a, b]⟩ : Shape).Idx → EReal) {i j : ℕ} (hi : i < a) (hj : j < b) :
    at2 A i j = A (ix2 ⟨i, hi⟩ ⟨j, hj⟩) := at2_fin A ⟨i, hi⟩ ⟨j, hj⟩

theorem at3_of_lt {a b c : ℕ} (A : (⟨3, ![a, b, c]⟩ : Shape).Idx → EReal) {i j k : ℕ} (hi : i < a) (hj : j < b) (hk : k < c) :
    at3 A i j k = A (ix3 ⟨i, hi⟩ ⟨j, hj⟩ ⟨k, hk⟩) := at3_fin A ⟨i, hi⟩ ⟨j, hj⟩ ⟨k, hk⟩

/-- The SwiGLU gate of the two projections: (g · σ(g)) · u. -/
def gate (g u : EReal) : EReal := g * Ideal.logistic g * u

/-- With both projections zero the gate is zero. -/
theorem gate_zero : gate 0 0 = 0 := by unfold gate; rw [mul_zero]

/-- A projection: the contraction of a token's 2048 features with one column of a weight matrix. -/
def proj (x : ℕ → EReal) (w : ℕ → ℕ → EReal) (i : ℕ) : EReal := ∑ k ∈ Finset.range 2048, x k * w k i

/-- A column of zeros projects to zero. -/
theorem proj_zero (x : ℕ → EReal) (w : ℕ → ℕ → EReal) (i : ℕ) (hw : ∀ k, w k i = 0) : proj x w i = 0 := by
  unfold proj
  exact Finset.sum_eq_zero fun k _ => by rw [hw k, mul_zero]

/-- The contribution of intermediate coordinate i to one result entry. -/
def term (x : ℕ → EReal) (wg wu : ℕ → ℕ → EReal) (wd : ℕ → EReal) (i : ℕ) : EReal :=
  gate (proj x wg i) (proj x wu i) * wd i

/-- The result entry: the first n intermediate coordinates summed. -/
def mlp (n : ℕ) (x : ℕ → EReal) (wg wu : ℕ → ℕ → EReal) (wd : ℕ → EReal) : EReal :=
  ∑ i ∈ Finset.range n, term x wg wu wd i

theorem mlp_zero (x : ℕ → EReal) (wg wu : ℕ → ℕ → EReal) (wd : ℕ → EReal) : mlp 0 x wg wu wd = 0 := by
  unfold mlp; rw [Finset.range_zero, Finset.sum_empty]

/-- One more tile of B intermediate coordinates: the sum so far plus the tile's own sum. -/
theorem mlp_add_tile (n B : ℕ) (x : ℕ → EReal) (wg wu : ℕ → ℕ → EReal) (wd : ℕ → EReal) :
    mlp (n + B) x wg wu wd = mlp n x wg wu wd + ∑ j ∈ Finset.range B, term x wg wu wd (n + j) := by
  unfold mlp; exact Finset.sum_range_add _ n B

/-- Coordinates whose three weights all vanish contribute nothing. -/
theorem term_pad (x : ℕ → EReal) (wg wu : ℕ → ℕ → EReal) (wd : ℕ → EReal) (i : ℕ)
    (hg : ∀ k, wg k i = 0) (hu : ∀ k, wu k i = 0) : term x wg wu wd i = 0 := by
  unfold term
  rw [proj_zero x wg i hg, proj_zero x wu i hu, gate_zero, zero_mul]

/-- The sum depends only on the weights at the coordinates summed. -/
theorem mlp_congr (n : ℕ) (x x' : ℕ → EReal) (wg wu wg' wu' : ℕ → ℕ → EReal) (wd wd' : ℕ → EReal)
    (hx : ∀ k, k < 2048 → x k = x' k)
    (hg : ∀ k i, k < 2048 → i < n → wg k i = wg' k i) (hu : ∀ k i, k < 2048 → i < n → wu k i = wu' k i)
    (hd : ∀ i, i < n → wd i = wd' i) : mlp n x wg wu wd = mlp n x' wg' wu' wd' := by
  unfold mlp
  refine Finset.sum_congr rfl fun i hi => ?_
  have hi' : i < n := Finset.mem_range.mp hi
  unfold term proj
  rw [hd i hi']
  congr 2
  · exact Finset.sum_congr rfl fun k hk => by rw [hx k (Finset.mem_range.mp hk), hg k i (Finset.mem_range.mp hk) hi']
  · exact Finset.sum_congr rfl fun k hk => by rw [hx k (Finset.mem_range.mp hk), hu k i (Finset.mem_range.mp hk) hi']

/-- Extending the intermediate axis from n to n + p by coordinates whose gate and up weights vanish changes nothing. -/
theorem mlp_pad (n p : ℕ) (x : ℕ → EReal) (wg wu : ℕ → ℕ → EReal) (wd : ℕ → EReal)
    (hg : ∀ k i, n ≤ i → wg k i = 0) (hu : ∀ k i, n ≤ i → wu k i = 0) :
    mlp (n + p) x wg wu wd = mlp n x wg wu wd := by
  rw [mlp_add_tile]
  rw [Finset.sum_eq_zero fun j _ => term_pad x wg wu wd (n + j) (fun k => hg k _ (Nat.le_add_right _ _))
    (fun k => hu k _ (Nat.le_add_right _ _)), add_zero]

/-- THE RESULT both programs compute, as a function of the four float arguments: row `j 0` of the tokens belongs to
    expert `j 0 / 2048`; its entry at hidden coordinate `j 1` is the sum over the 5504 intermediate coordinates of the
    gated projections times that expert's down weight. -/
def result (a0 : (⟨2, ![16384, 2048]⟩ : Shape).Idx → EReal) (a1 a2 : (⟨3, ![8, 2048, 5504]⟩ : Shape).Idx → EReal)
    (a3 : (⟨3, ![8, 5504, 2048]⟩ : Shape).Idx → EReal) : (⟨2, ![16384, 2048]⟩ : Shape).Idx → EReal :=
  fun j => mlp 5504 (fun k => at2 a0 (j 0).val k) (fun k i => at3 a1 ((j 0).val / 2048) k i)
    (fun k i => at3 a2 ((j 0).val / 2048) k i) (fun i => at3 a3 ((j 0).val / 2048) i (j 1).val)

end Cert.Swiglu

end
-- ==== Proof.Arrays.lean ====
/-
  Names, at literal shapes and over the extended reals, for what the kernel region finds: the four arrays its windows
  stage (the tokens regrouped by expert, and the three weight arrays with the intermediate axis extended from 5504 to
  5632), each window's block at a grid point, and the program's float arguments.
-/
import proofs.«173761_j30279519436987_1_alg».proof.Proof.Gen.KernelIdeal.Frame
import proofs.«173761_j30279519436987_1_alg».proof.Proof.SwigluSum

noncomputable section

namespace Cert.KernelIdeal.Mlp

open Idealize.ShloMosaic Idealize.ShloMosaic.TcCoe Idealize.SL.Sem Idealize.ShloMosaic.ValueIdx
open Cert.KernelIdeal Cert.KernelIdeal.Gen Cert.Swiglu

variable (m : (ℓ : Loc nD τ sig) → Buf (Elt Ideal) ℓ)

/-- The grid has 8 · 4 · 11 = 352 points. -/
theorem lt352 (t : Fin cfg0.N) : t.val < 352 := lt_of_lt_of_eq t.isLt (show cfg0.N = 352 from N_0)

/-- The tokens as the region finds them: [expert, token, feature]. -/
abbrev xarr (c : Dev nD) : (⟨3, ![8, 2048, 2048]⟩ : Shape).Idx → EReal := V m c main_v1
/-- The gate weights as the region finds them: [expert, feature, extended intermediate]. -/
abbrev garr (c : Dev nD) : (⟨3, ![8, 2048, 5632]⟩ : Shape).Idx → EReal := V m c main_v3
/-- The up weights as the region finds them. -/
abbrev uarr (c : Dev nD) : (⟨3, ![8, 2048, 5632]⟩ : Shape).Idx → EReal := V m c main_v5
/-- The down weights as the region finds them: [expert, extended intermediate, hidden]. -/
abbrev darr (c : Dev nD) : (⟨3, ![8, 5632, 2048]⟩ : Shape).Idx → EReal := V m c main_v7

/-- The blocks the four input windows hold at grid point t. -/
abbrev xblk (c : Dev nD) (t : Fin cfg0.N) : (⟨3, ![1, 512, 2048]⟩ : Shape).Idx → EReal := iblk m c 0 t
abbrev gblk (c : Dev nD) (t : Fin cfg0.N) : (⟨3, ![1, 2048, 512]⟩ : Shape).Idx → EReal := iblk m c 1 t
abbrev ublk (c : Dev nD) (t : Fin cfg0.N) : (⟨3, ![1, 2048, 512]⟩ : Shape).Idx → EReal := iblk m c 2 t
abbrev dblk (c : Dev nD) (t : Fin cfg0.N) : (⟨3, ![1, 512, 2048]⟩ : Shape).Idx → EReal := iblk m c 3 t

/-- The program's four float arguments. -/
abbrev arg0 (c : Dev nD) : (⟨2, ![16384, 2048]⟩ : Shape).Idx → EReal := m ((c.tc : Thread nD τ).loc main_arg0)
abbrev arg1 (c : Dev nD) : (⟨3, ![8, 2048, 5504]⟩ : Shape).Idx → EReal := m ((c.tc : Thread nD τ).loc main_arg1)
abbrev arg2 (c : Dev nD) : (⟨3, ![8, 2048, 5504]⟩ : Shape).Idx → EReal := m ((c.tc : Thread nD τ).loc main_arg2)
abbrev arg3 (c : Dev nD) : (⟨3, ![8, 5504, 2048]⟩ : Shape).Idx → EReal := m ((c.tc : Thread nD τ).loc main_arg3)

end Cert.KernelIdeal.Mlp

end
-- ==== Proof.Pieces.lean ====
/-
  What each control case of the body leaves behind, as values.  At the first intermediate tile the accumulator is
  zeroed and then receives zero plus the tile's product; at the middle tiles it receives what it held plus the tile's
  product; at the last tile it does the same and the output block receives a copy of it.  Each is one covering store,
  whose payload reads the whole staging buffers.
-/
import proofs.«173761_j30279519436987_1_alg».proof.Proof.Gen.KernelIdeal.Frame
import Idealize.ShloMosaic.Lib.Pipeline.Value
import Idealize.ShloMosaic.Lib.Tactic

noncomputable section

namespace Cert.KernelIdeal.Mlp

open Idealize.ShloMosaic Idealize.ShloMosaic.TcCoe Idealize.SL.Sem Idealize.ShloMosaic.Tactic
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle tile: the accumulator ends at its old contents plus the tile's product. -/
theorem sout_B (c : Dev nD) (i : grid0.Coords) (a3 : Memref sig .tc .vmem S1x512x2048 .bf16) (h3 : a3.IsWhole) (a4 : Memref sig .tc .vmem S1x2048x512 .bf16) (h4 : a4.IsWhole) (a5 : Memref sig .tc .vmem S1x2048x512 .bf16) (h5 : a5.IsWhole) (a6 : Memref sig .tc .vmem S1x512x2048 .bf16) (h6 : a6.IsWhole) (a7 : Memref sig .tc .vmem S1x512x2048 .f32) (h7 : a7.IsWhole) (a8 : Memref sig .tc .vmem S512x2048 .f32) (h8 : a8.IsWhole) (hc0 : ¬cond0_0 i) (hc1 : ¬cond0_1 i)
    (x0 : Vec F S1x512x2048 .bf16) (x1 : Vec F S1x2048x512 .bf16) (x2 : Vec F S1x2048x512 .bf16) (x3 : Vec F S1x512x2048 .bf16) (xs0 : Vec F S512x2048 .f32) :
    sout0_B_0 c i a3 h3 a4 h4 a5 h5 a6 h6 a7 h7 a8 h8 hc0 hc1 x0 x1 x2 x3 xs0 = k0_pay2 x0 x1 x2 xs0 x3 := by
  unfold sout0_B_0
  rw [View.read_writes_eq_canon _ _ _ (scover0_B_0 c i a3 h3 a4 h4 a5 h5 a6 h6 a7 h7 a8 h8 hc0 hc1 x0 x1 x2 x3 xs0)]
  unfold kernelRun0_B
  dsimp only
  rw [View.canon_unit_zero hz2]
  simp only [View.readAt_eq_ld, h3.read_unread, h4.read_unread, h5.read_unread, h6.read_unread, h8.read_unread,
    View.ld_unit_zero (S := S1x512x2048) hz3, View.ld_unit_zero (S := S1x2048x512) hz3, View.ld_unit_zero (S := S512x2048) hz2]

/-- The last tile: the accumulator ends likewise, -/
theorem sout_C (c : Dev nD) (i : grid0.Coords) (a3 : Memref sig .tc .vmem S1x512x2048 .bf16) (h3 : a3.IsWhole) (a4 : Memref sig .tc .vmem S1x2048x512 .bf16) (h4 : a4.IsWhole) (a5 : Memref sig .tc .vmem S1x2048x512 .bf16) (h5 : a5.IsWhole) (a6 : Memref sig .tc .vmem S1x512x2048 .bf16) (h6 : a6.IsWhole) (a7 : Memref sig .tc .vmem S1x512x2048 .f32) (h7 : a7.IsWhole) (a8 : Memref sig .tc .vmem S512x2048 .f32) (h8 : a8.IsWhole) (hc0 : ¬cond0_0 i) (hc1 : cond0_1 i)
    (x0 : Vec F S1x512x2048 .bf16) (x1 : Vec F S1x2048x512 .bf16) (x2 : Vec F S1x2048x512 .bf16) (x3 : Vec F S1x512x2048 .bf16) (xs0 : Vec F S512x2048 .f32) :
    sout0_C_0 c i a3 h3 a4 h4 a5 h5 a6 h6 a7 h7 a8 h8 hc0 hc1 x0 x1 x2 x3 xs0 = k0_pay2 x0 x1 x2 xs0 x3 := by
  unfold sout0_C_0
  rw [View.read_writes_eq_canon _ _ _ (scover0_C_0 c i a3 h3 a4 h4 a5 h5 a6 h6 a7 h7 a8 h8 hc0 hc1 x0 x1 x2 x3 xs0)]
  unfold kernelRun0_C
  dsimp only
  sl_unfold_words
  rw [View.canon_unit_zero hz2]
  simp only [View.readAt_eq_ld, h3.read_unread, h4.read_unread, h5.read_unread, h6.read_unread, h8.read_unread,
    View.ld_unit_zero (S := S1x512x2048) hz3, View.ld_unit_zero (S := S1x2048x512) hz3, View.ld_unit_zero (S := S512x2048) hz2]

/-- and the output block receives a copy of it. -/
theorem out_C (c : Dev nD) (i : grid0.Coords) (a3 : Memref sig .tc .vmem S1x512x2048 .bf16) (h3 : a3.IsWhole) (a4 : Memref sig .tc .vmem S1x2048x512 .bf16) (h4 : a4.IsWhole) (a5 : Memref sig .tc .vmem S1x2048x512 .bf16) (h5 : a5.IsWhole) (a6 : Memref sig .tc .vmem S1x512x2048 .bf16) (h6 : a6.IsWhole) (a7 : Memref sig .tc .vmem S1x512x2048 .f32) (h7 : a7.IsWhole) (a8 : Memref sig .tc .vmem S512x2048 .f32) (h8 : a8.IsWhole) (hc0 : ¬cond0_0 i) (hc1 : cond0_1 i)
    (x0 : Vec F S1x512x2048 .bf16) (x1 : Vec F S1x2048x512 .bf16) (x2 : Vec F S1x2048x512 .bf16) (x3 : Vec F S1x512x2048 .bf16) (xs0 : Vec F S512x2048 .f32) :
    out0_C_4 c i a3 h3 a4 h4 a5 h5 a6 h6 a7 h7 a8 h8 hc0 hc1 x0 x1 x2 x3 xs0 = k0_pay3 (k0_pay2 x0 x1 x2 xs0 x3) := by
  unfold out0_C_4
  rw [View.read_writes_eq_canon _ _ _ (cover0_C_4 c i a3 h3 a4 h4 a5 h5 a6 h6 a7 h7 a8 h8 hc0 hc1 x0 x1 x2 x3 xs0)]
  unfold kernelRun0_C
  dsimp only
  sl_unfold_words
  rw [View.canon_unit_zero hz3]
  simp only [View.readAt_eq_ld, h3.read_unread, h4.read_unread, h5.read_unread, h6.read_unread, h8.read_unread,
    View.readCov_unit_zero (S := S512x2048) _ hz2,
    View.ld_unit_zero (S := S1x512x2048) hz3, View.ld_unit_zero (S := S1x2048x512) hz3, View.ld_unit_zero (S := S512x2048) hz2]

/-- The first tile: the accumulator is zeroed, then receives the zero block plus the tile's product. -/
theorem sout_A (c : Dev nD) (i : grid0.Coords) (a3 : Memref sig .tc .vmem S1x512x2048 .bf16) (h3 : a3.IsWhole) (a4 : Memref sig .tc .vmem S1x2048x512 .bf16) (h4 : a4.IsWhole) (a5 : Memref sig .tc .vmem S1x2048x512 .bf16) (h5 : a5.IsWhole) (a6 : Memref sig .tc .vmem S1x512x2048 .bf16) (h6 : a6.IsWhole) (a7 : Memref sig .tc .vmem S1x512x2048 .f32) (h7 : a7.IsWhole) (a8 : Memref sig .tc .vmem S512x2048 .f32) (h8 : a8.IsWhole) (hc0 : cond0_0 i) (hc1 : ¬cond0_1 i)
    (x0 : Vec F S1x512x2048 .bf16) (x1 : Vec F S1x2048x512 .bf16) (x2 : Vec F S1x2048x512 .bf16) (x3 : Vec F S1x512x2048 .bf16) :
    sout0_A_0 c i a3 h3 a4 h4 a5 h5 a6 h6 a7 h7 a8 h8 hc0 hc1 x0 x1 x2 x3 = k0_pay2 x0 x1 x2 (k0_pay1 (F := F)) x3 := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words
  rw [View.canon_cons_unit_zero (S := S512x2048) hz2, View.readCov_unit_zero (S := S512x2048) _ hz2]
  simp only [View.readAt_eq_ld, h3.read_unread, h4.read_unread, h5.read_unread, h6.read_unread,
    View.ld_unit_zero (S := S1x512x2048) hz3, View.ld_unit_zero (S := S1x2048x512) hz3, View.ld_unit_zero (S := S512x2048) hz2]

end Cert.KernelIdeal.Mlp

end
-- ==== Proof.Payload.lean ====
/-
  The body's arithmetic at one entry, over the extended reals: the value stored into the accumulator at (r, h) is what
  the accumulator held there plus, summed over the tile's 512 intermediate coordinates j, the gated pair of
  projections of token row r onto gate and up column j, times the down block's entry (j, h).  The reset stores zero,
  and the final store copies the accumulator.
-/
import proofs.«173761_j30279519436987_1_alg».proof.Proof.Gen.KernelIdeal.Skeleton
import proofs.«173761_j30279519436987_1_alg».proof.Proof.SwigluSum
import Idealize.ShloMosaic.Lib.Pipeline.Value
import Idealize.ShloMosaic.Lib.ValueIdx
import Idealize.ShloMosaic.PureOps.Ideal.Laws

noncomputable section

namespace Cert.KernelIdeal.Mlp

open Idealize.ShloMosaic Idealize.ShloMosaic.TcCoe Idealize.SL.Sem Idealize.ShloMosaic.ValueIdx
open Cert.KernelIdeal Cert.KernelIdeal.Gen Cert.Swiglu

theorem pay1_at (r : Fin 512) (h : Fin 2048) : k0_pay1 (F := Ideal) (ix2 r h) = 0 := by
  unfold k0_pay1
  show shapeCast S512x2048 (broadcast S512x2048 (Scalar.ofBits .f32 0x00000000#32)) shapeCasts_S512x2048_S512x2048 (ix2 r h) = 0
  rw [shapeCast_self]
  exact Ideal.ofBits_zero_f32

namespace Payload

/-! The first product: a [512,2048] by [2048,512] contraction.  On each operand the index read at output entry i and
    contraction position q has one coordinate from i and the other from q. -/

theorem lhs_mmA_0 (i : S512x512.Idx) (q : dot_S512x2048_S2048x512_S512x512_1_0_0_1_n_n.contr.Idx) :
    (dot_S512x2048_S2048x512_S512x512_1_0_0_1_n_n.lhsIdx i q 0).val = (i 0).val := by
  unfold DotDims.lhsIdx
  rw [dif_neg (show ¬(0 : Fin S512x2048.rank) ∈ dot_S512x2048_S2048x512_S512x512_1_0_0_1_n_n.lhsBatch by decide), dif_pos (show (0 : Fin S512x2048.rank) ∈ dot_S512x2048_S2048x512_S512x512_1_0_0_1_n_n.lhsNonContracting by decide)]
  rfl
theorem lhs_mmA_1 (i : S512x512.Idx) (q : dot_S512x2048_S2048x512_S512x512_1_0_0_1_n_n.contr.Idx) :
    (dot_S512x2048_S2048x512_S512x512_1_0_0_1_n_n.lhsIdx i q 1).val = (q ⟨0, by decide⟩).val :=
  dot_S512x2048_S2048x512_S512x512_1_0_0_1_n_n.lhsIdx_val_of_single rfl i q
theorem rhs_mmA_0 (i : S512x512.Idx) (q : dot_S512x2048_S2048x512_S512x512_1_0_0_1_n_n.contr.Idx) :
    (dot_S512x2048_S2048x512_S512x512_1_0_0_1_n_n.rhsIdx i q 0).val = (q ⟨0, by decide⟩).val :=
  dot_S512x2048_S2048x512_S512x512_1_0_0_1_n_n.rhsIdx_val_of_single rfl i q
theorem rhs_mmA_1 (i : S512x512.Idx) (q : dot_S512x2048_S2048x512_S512x512_1_0_0_1_n_n.contr.Idx) :
    (dot_S512x2048_S2048x512_S512x512_1_0_0_1_n_n.rhsIdx i q 1).val = (i 1).val := by
  unfold DotDims.rhsIdx
  rw [dif_neg (show ¬(1 : Fin S2048x512.rank) ∈ dot_S512x2048_S2048x512_S512x512_1_0_0_1_n_n.rhsBatch by decide), dif_pos (show (1 : Fin S2048x512.rank) ∈ dot_S512x2048_S2048x512_S512x512_1_0_0_1_n_n.rhsNonContracting by decide)]
  rfl

/-- Entry (r, j) of the product into the zero matrix is the sum over the 2048 contracted coordinates. -/
theorem mmA_at (l : S512x2048.Idx → EReal) (w : S2048x512.Idx → EReal) (r j : Fin 512) :
    matmul (F := Ideal) (φ₁ := .bf16) (φ₂ := .bf16) dot_S512x2048_S2048x512_S512x512_1_0_0_1_n_n none l w (constant S512x512 .f32 0x00000000#32) (ix2 r j)
      = ∑ k : Fin 2048, l (ix2 r k) * w (ix2 k j) := by
  simp only [matmul]
  rw [Ideal.matmul_constant_zero_apply, ← Equiv.sum_comp (ValueIdx.contrEquiv1 dot_S512x2048_S2048x512_S512x512_1_0_0_1_n_n 2048 rfl rfl).symm]
  refine Finset.sum_congr rfl fun k _ => ?_
  have hk := ValueIdx.contrEquiv1_symm_val dot_S512x2048_S2048x512_S512x512_1_0_0_1_n_n 2048 rfl rfl k
  have el : dot_S512x2048_S2048x512_S512x512_1_0_0_1_n_n.lhsIdx (ix2 r j) ((ValueIdx.contrEquiv1 dot_S512x2048_S2048x512_S512x512_1_0_0_1_n_n 2048 rfl rfl).symm k) = ix2 r k := funext fun a => Fin.ext (by
    match a with
    | ⟨0, _⟩ => exact lhs_mmA_0 _ _
    | ⟨1, _⟩ => exact (lhs_mmA_1 _ _).trans hk)
  have er : dot_S512x2048_S2048x512_S512x512_1_0_0_1_n_n.rhsIdx (ix2 r j) ((ValueIdx.contrEquiv1 dot_S512x2048_S2048x512_S512x512_1_0_0_1_n_n 2048 rfl rfl).symm k) = ix2 k j := funext fun a => Fin.ext (by
    match a with
    | ⟨0, _⟩ => exact (rhs_mmA_0 _ _).trans hk
    | ⟨1, _⟩ => exact rhs_mmA_1 _ _)
  rw [el, er]

/-! The second product: a [512,512] by [512,2048] contraction. -/

theorem lhs_mmB_0 (i : S512x2048.Idx) (q : dot_S512x512_S512x2048_S512x2048_1_0_0_1_n_n.contr.Idx) :
    (dot_S512x512_S512x2048_S512x2048_1_0_0_1_n_n.lhsIdx i q 0).val = (i 0).val := by
  unfold DotDims.lhsIdx
  rw [dif_neg (show ¬(0 : Fin S512x512.rank) ∈ dot_S512x512_S512x2048_S512x2048_1_0_0_1_n_n.lhsBatch by decide), dif_pos (show (0 : Fin S512x512.rank) ∈ dot_S512x512_S512x2048_S512x2048_1_0_0_1_n_n.lhsNonContracting by decide)]
  rfl
theorem lhs_mmB_1 (i : S512x2048.Idx) (q : dot_S512x512_S512x2048_S512x2048_1_0_0_1_n_n.contr.Idx) :
    (dot_S512x512_S512x2048_S512x2048_1_0_0_1_n_n.lhsIdx i q 1).val = (q ⟨0, by decide⟩).val :=
  dot_S512x512_S512x2048_S512x2048_1_0_0_1_n_n.lhsIdx_val_of_single rfl i q
theorem rhs_mmB_0 (i : S512x2048.Idx) (q : dot_S512x512_S512x2048_S512x2048_1_0_0_1_n_n.contr.Idx) :
    (dot_S512x512_S512x2048_S512x2048_1_0_0_1_n_n.rhsIdx i q 0).val = (q ⟨0, by decide⟩).val :=
  dot_S512x512_S512x2048_S512x2048_1_0_0_1_n_n.rhsIdx_val_of_single rfl i q
theorem rhs_mmB_1 (i : S512x2048.Idx) (q : dot_S512x512_S512x2048_S512x2048_1_0_0_1_n_n.contr.Idx) :
    (dot_S512x512_S512x2048_S512x2048_1_0_0_1_n_n.rhsIdx i q 1).val = (i 1).val := by
  unfold DotDims.rhsIdx
  rw [dif_neg (show ¬(1 : Fin S512x2048.rank) ∈ dot_S512x512_S512x2048_S512x2048_1_0_0_1_n_n.rhsBatch by decide), dif_pos (show (1 : Fin S512x2048.rank) ∈ dot_S512x512_S512x2048_S512x2048_1_0_0_1_n_n.rhsNonContracting by decide)]
  rfl

/-- Entry (r, h) of the product into the zero matrix is the sum over the 512 contracted coordinates. -/
theorem mmB_at (l : S512x512.Idx → EReal) (w : S512x2048.Idx → EReal) (r : Fin 512) (h : Fin 2048) :
    matmul (F := Ideal) (φ₁ := .bf16) (φ₂ := .bf16) dot_S512x512_S512x2048_S512x2048_1_0_0_1_n_n none l w (constant S512x2048 .f32 0x00000000#32) (ix2 r h)
      = ∑ j : Fin 512, l (ix2 r j) * w (ix2 j h) := by
  simp only [matmul]
  rw [Ideal.matmul_constant_zero_apply, ← Equiv.sum_comp (ValueIdx.contrEquiv1 dot_S512x512_S512x2048_S512x2048_1_0_0_1_n_n 512 rfl rfl).symm]
  refine Finset.sum_congr rfl fun k _ => ?_
  have hk := ValueIdx.contrEquiv1_symm_val dot_S512x512_S512x2048_S512x2048_1_0_0_1_n_n 512 rfl rfl k
  have el : dot_S512x512_S512x2048_S512x2048_1_0_0_1_n_n.lhsIdx (ix2 r h) ((ValueIdx.contrEquiv1 dot_S512x512_S512x2048_S512x2048_1_0_0_1_n_n 512 rfl rfl).symm k) = ix2 r k := funext fun a => Fin.ext (by
    match a with
    | ⟨0, _⟩ => exact lhs_mmB_0 _ _
    | ⟨1, _⟩ => exact (lhs_mmB_1 _ _).trans hk)
  have er : dot_S512x512_S512x2048_S512x2048_1_0_0_1_n_n.rhsIdx (ix2 r h) ((ValueIdx.contrEquiv1 dot_S512x512_S512x2048_S512x2048_1_0_0_1_n_n 512 rfl rfl).symm k) = ix2 k h := funext fun a => Fin.ext (by
    match a with
    | ⟨0, _⟩ => exact (rhs_mmB_0 _ _).trans hk
    | ⟨1, _⟩ => exact rhs_mmB_1 _ _)
  rw [el, er]

/-! Layout: a block with a leading unit axis viewed as a matrix, and reads at natural-number coordinates. -/

/-- A [1,a,b] block viewed as an [a,b] matrix reads (i, j) at (0, i, j). -/
theorem dropUnit_at {a b : ℕ} (x : (⟨3, ![1, a, b]⟩ : Shape).Idx → EReal)
    (hc : (⟨3, ![1, a, b]⟩ : Shape).ShapeCasts ⟨2, ![a, b]⟩) (i : Fin a) (j : Fin b) :
    shapeCast ⟨2, ![a, b]⟩ x hc (ix2 i j) = x (ix3 0 i j) := by
  refine (shapeCast_dropUnit_apply ![a, b] x hc (ix2 i j)).trans ?_
  refine congrArg x (funext fun d => ?_)
  match d with
  | ⟨0, _⟩ => rfl
  | ⟨1, _⟩ => rfl
  | ⟨2, _⟩ => rfl

/-- The read at natural-number coordinates of a block with a leading unit axis, inside the block. -/
theorem at3_unit {b c : ℕ} (A : (⟨3, ![1, b, c]⟩ : Shape).Idx → EReal) (j : Fin b) (k : Fin c) :
    at3 A 0 j.val k.val = A (ix3 0 j k) := at3_fin A 0 j k

/-- The vector logistic, lane by lane, is the logistic function of the extended reals. -/
theorem logistic_at {s : Shape} {φ : FTy} (v : FVec Ideal s φ) (i : s.Idx) : logistic v i = Ideal.logistic (v i) := rfl

/-- A projection of the kernel: token row r of the x block against column j of a [1,2048,512] weight block. -/
theorem proj_at (x0 : S1x512x2048.Idx → EReal) (w : S1x2048x512.Idx → EReal) (r j : Fin 512) :
    matmul (F := Ideal) (φ₁ := .bf16) (φ₂ := .bf16) dot_S512x2048_S2048x512_S512x512_1_0_0_1_n_n none
        (shapeCast S512x2048 x0 shapeCasts_S1x512x2048_S512x2048) (shapeCast S2048x512 w shapeCasts_S1x2048x512_S2048x512)
        (constant S512x512 .f32 0x00000000#32) (ix2 r j)
      = proj (fun k => at3 x0 0 r.val k) (fun k i => at3 w 0 k i) j.val := by
  rw [mmA_at]
  unfold proj
  rw [Finset.sum_range]
  refine Finset.sum_congr rfl fun k _ => ?_
  show _ = at3 x0 0 r.val k.val * at3 w 0 k.val j.val
  rw [dropUnit_at, dropUnit_at, at3_unit, at3_unit]

end Payload

open Payload

/-- The accumulating store: entrywise, the sum of the accumulator and the second product; the second product's left
    factor at (r, j) is the gate of the two projections of row r onto column j (a change of float format is the
    identity on the extended reals), its right factor the down block's entry (j, h). -/
theorem pay2_at (x0 : (⟨3, ![1, 512, 2048]⟩ : Shape).Idx → EReal) (x1 x2 : (⟨3, ![1, 2048, 512]⟩ : Shape).Idx → EReal)
    (acc : (⟨2, ![512, 2048]⟩ : Shape).Idx → EReal) (x3 : (⟨3, ![1, 512, 2048]⟩ : Shape).Idx → EReal) (r : Fin 512) (h : Fin 2048) :
    k0_pay2 (F := Ideal) x0 x1 x2 acc x3 (ix2 r h)
      = acc (ix2 r h) + ∑ j ∈ Finset.range 512, term (fun k => at3 x0 0 r.val k) (fun k j => at3 x1 0 k j)
          (fun k j => at3 x2 0 k j) (fun j => at3 x3 0 j h.val) j := by
  unfold k0_pay2
  rw [shapeCast_self, addf_apply, mmB_at, Finset.sum_range]
  refine congrArg (acc (ix2 r h) + ·) (Finset.sum_congr rfl fun j _ => ?_)
  rw [truncf_apply, mulf_apply, mulf_apply, logistic_at, dropUnit_at, proj_at, proj_at]
  unfold term gate
  show _ = _ * at3 x3 0 j.val h.val
  rw [at3_unit]

theorem pay3_at (v : (⟨2, ![512, 2048]⟩ : Shape).Idx → EReal) (r : Fin 512) (h : Fin 2048) :
    k0_pay3 (F := Ideal) v (ix3 0 r h) = v (ix2 r h) := by
  unfold k0_pay3
  refine (shapeCast_addUnit_apply ![512, 2048] v shapeCasts_S512x2048_S1x512x2048 (ix3 0 r h)).trans ?_
  refine congrArg v (funext fun a => ?_)
  match a with
  | ⟨0, _⟩ => rfl
  | ⟨1, _⟩ => rfl

end Cert.KernelIdeal.Mlp

end
-- ==== Proof.Blocks.lean ====
/-
  Each input window's block at a grid point is a sub-box of its array: grid point t is expert t / 44, token tile
  (t / 11) % 4 and intermediate tile t % 11; the token window reads rows 512 · tile onward of its expert, the gate and up
  windows columns 512 · tile onward, the down window rows 512 · tile onward.
-/
import proofs.«173761_j30279519436987_1_alg».proof.Proof.Arrays

noncomputable section

namespace Cert.KernelIdeal.Mlp

open Idealize.ShloMosaic Idealize.ShloMosaic.TcCoe Idealize.SL.Sem Idealize.ShloMosaic.ValueIdx
open Cert.KernelIdeal Cert.KernelIdeal.Gen Cert.Swiglu

variable (m : (ℓ : Loc nD τ sig) → Buf (Elt Ideal) ℓ)

/-! The block indices of the four windows, decided once over the 352 grid points: point t has expert coordinate
    t / 44, token-tile coordinate (t / 11) % 4 and intermediate-tile coordinate t % 11. -/

/-- Token window: block index (expert, token tile, 0). -/
private theorem idx0 : ∀ t : Fin cfg0.N,
    win0_0.index t 0 = t.val / 44 ∧ win0_0.index t 1 = t.val / 11 % 4 ∧ win0_0.index t 2 = 0 :=
  (by decide +kernel : ∀ t : Fin grid0.N, _)

/-- Gate window: block index (expert, 0, intermediate tile). -/
private theorem idx1 : ∀ t : Fin cfg0.N,
    win0_1.index t 0 = t.val / 44 ∧ win0_1.index t 1 = 0 ∧ win0_1.index t 2 = t.val % 11 :=
  (by decide +kernel : ∀ t : Fin grid0.N, _)

/-- Up window: block index (expert, 0, intermediate tile). -/
private theorem idx2 : ∀ t : Fin cfg0.N,
    win0_2.index t 0 = t.val / 44 ∧ win0_2.index t 1 = 0 ∧ win0_2.index t 2 = t.val % 11 :=
  (by decide +kernel : ∀ t : Fin grid0.N, _)

/-- Down window: block index (expert, intermediate tile, 0). -/
private theorem idx3 : ∀ t : Fin cfg0.N,
    win0_3.index t 0 = t.val / 44 ∧ win0_3.index t 1 = t.val % 11 ∧ win0_3.index t 2 = 0 :=
  (by decide +kernel : ∀ t : Fin grid0.N, _)

/-! On each axis an element of a block sits in the array at (block index) · (block size) + (its coordinate inside the
    block); with the indices above that is the claimed row or column offset 512 · tile. -/

theorem xblk_at (c : Dev nD) (t : Fin cfg0.N) {r k : ℕ} (hr : r < 512) (hk : k < 2048) :
    at3 (xblk m c t) 0 r k = at3 (xarr m c) (t.val / 44) (t.val / 11 % 4 * 512 + r) k := by
  have ht := lt352 t
  obtain ⟨h0, h1, h2⟩ := idx0 t
  rw [at3_of_lt _ (by omega) hr hk, at3_of_lt _ (by omega) (by omega) (by omega)]
  show iblk m c 0 t _ = V m c main_v1 _
  unfold iblk
  rw [View.read_apply]
  show V m c main_v1 _ = V m c main_v1 _
  congr 1
  funext a
  apply Fin.ext
  match a with
  | ⟨0, _⟩ => show win0_0.index t 0 * 1 + 1 * 0 = t.val / 44; rw [h0]; omega
  | ⟨1, _⟩ => show win0_0.index t 1 * 512 + 1 * r = t.val / 11 % 4 * 512 + r; rw [h1]; omega
  | ⟨2, _⟩ => show win0_0.index t 2 * 2048 + 1 * k = k; rw [h2]; omega

theorem gblk_at (c : Dev nD) (t : Fin cfg0.N) {k j : ℕ} (hk : k < 2048) (hj : j < 512) :
    at3 (gblk m c t) 0 k j = at3 (garr m c) (t.val / 44) k (t.val % 11 * 512 + j) := by
  have ht := lt352 t
  obtain ⟨h0, h1, h2⟩ := idx1 t
  rw [at3_of_lt _ (by omega) hk hj, at3_of_lt _ (by omega) (by omega) (by omega)]
  show iblk m c 1 t _ = V m c main_v3 _
  unfold iblk
  rw [View.read_apply]
  show V m c main_v3 _ = V m c main_v3 _
  congr 1
  funext a
  apply Fin.ext
  match a with
  | ⟨0, _⟩ => show win0_1.index t 0 * 1 + 1 * 0 = t.val / 44; rw [h0]; omega
  | ⟨1, _⟩ => show win0_1.index t 1 * 2048 + 1 * k = k; rw [h1]; omega
  | ⟨2, _⟩ => show win0_1.index t 2 * 512 + 1 * j = t.val % 11 * 512 + j; rw [h2]; omega

theorem ublk_at (c : Dev nD) (t : Fin cfg0.N) {k j : ℕ} (hk : k < 2048) (hj : j < 512) :
    at3 (ublk m c t) 0 k j = at3 (uarr m c) (t.val / 44) k (t.val % 11 * 512 + j) := by
  have ht := lt352 t
  obtain ⟨h0, h1, h2⟩ := idx2 t
  rw [at3_of_lt _ (by omega) hk hj, at3_of_lt _ (by omega) (by omega) (by omega)]
  show iblk m c 2 t _ = V m c main_v5 _
  unfold iblk
  rw [View.read_apply]
  show V m c main_v5 _ = V m c main_v5 _
  congr 1
  funext a
  apply Fin.ext
  match a with
  | ⟨0, _⟩ => show win0_2.index t 0 * 1 + 1 * 0 = t.val / 44; rw [h0]; omega
  | ⟨1, _⟩ => show win0_2.index t 1 * 2048 + 1 * k = k; rw [h1]; omega
  | ⟨2, _⟩ => show win0_2.index t 2 * 512 + 1 * j = t.val % 11 * 512 + j; rw [h2]; omega

theorem dblk_at (c : Dev nD) (t : Fin cfg0.N) {j h : ℕ} (hj : j < 512) (hh : h < 2048) :
    at3 (dblk m c t) 0 j h = at3 (darr m c) (t.val / 44) (t.val % 11 * 512 + j) h := by
  have ht := lt352 t
  obtain ⟨h0, h1, h2⟩ := idx3 t
  rw [at3_of_lt _ (by omega) hj hh, at3_of_lt _ (by omega) (by omega) (by omega)]
  show iblk m c 3 t _ = V m c main_v7 _
  unfold iblk
  rw [View.read_apply]
  show V m c main_v7 _ = V m c main_v7 _
  congr 1
  funext a
  apply Fin.ext
  match a with
  | ⟨0, _⟩ => show win0_3.index t 0 * 1 + 1 * 0 = t.val / 44; rw [h0]; omega
  | ⟨1, _⟩ => show win0_3.index t 1 * 512 + 1 * j = t.val % 11 * 512 + j; rw [h1]; omega
  | ⟨2, _⟩ => show win0_3.index t 2 * 2048 + 1 * h = h; rw [h2]; omega

end Cert.KernelIdeal.Mlp

end
-- ==== Proof.Accum.lean ====
/-
  The accumulation over the grid.  Grid point n belongs to expert n / 44, token tile (n / 11) % 4 and intermediate
  tile n % 11.  After point n the accumulator's entry (r, h) is the result entry's sum over the first
  (n % 11 + 1) · 512 coordinates of the extended intermediate axis, for token row 512 · tile + r of that expert: at
  tile 0 it is zero plus the tile's sum, afterwards what the point before left plus the tile's sum.  At the last
  tile the sum is over all 5632 coordinates and is copied to the output block, which the pipeline writes back; those
  blocks tile the result array.
-/
import proofs.«173761_j30279519436987_1_alg».proof.Proof.Arrays
import proofs.«173761_j30279519436987_1_alg».proof.Proof.Pieces
import proofs.«173761_j30279519436987_1_alg».proof.Proof.Payload
import proofs.«173761_j30279519436987_1_alg».proof.Proof.Blocks
import Idealize.ShloMosaic.Lib.Pipeline.Value

noncomputable section

namespace Cert.KernelIdeal.Mlp

open Idealize.ShloMosaic Idealize.ShloMosaic.TcCoe Idealize.SL.Sem Idealize.ShloMosaic.ValueIdx
open Cert.KernelIdeal Cert.KernelIdeal.Gen Cert.Swiglu

open Idealize.ShloMosaic.Pipeline (Dat)

variable (m : (ℓ : Loc nD τ sig) → Buf (Elt Ideal) ℓ)

/-- Token row r of point n's token tile, as a function of the feature. -/
def xrow (c : Dev nD) (n r : ℕ) : ℕ → EReal := fun k => at3 (xarr m c) (n / 44) (n / 11 % 4 * 512 + r) k
/-- Point n's expert's gate, up and down weights. -/
def gcol (c : Dev nD) (n : ℕ) : ℕ → ℕ → EReal := fun k i => at3 (garr m c) (n / 44) k i
def ucol (c : Dev nD) (n : ℕ) : ℕ → ℕ → EReal := fun k i => at3 (uarr m c) (n / 44) k i
def dcol (c : Dev nD) (n h : ℕ) : ℕ → EReal := fun i => at3 (darr m c) (n / 44) i h

/-- The tile's sum over the blocks is the sum of the tile's 512 terms over the arrays. -/
theorem tile_eq (c : Dev nD) (t : Fin cfg0.N) (r : Fin 512) (h : Fin 2048) :
    ∑ j ∈ Finset.range 512, term (fun k => at3 (xblk m c t) 0 r.val k) (fun k j => at3 (gblk m c t) 0 k j)
        (fun k j => at3 (ublk m c t) 0 k j) (fun j => at3 (dblk m c t) 0 j h.val) j
      = ∑ j ∈ Finset.range 512, term (xrow m c t.val r.val) (gcol m c t.val) (ucol m c t.val) (dcol m c t.val h.val)
          (t.val % 11 * 512 + j) := by
  refine Finset.sum_congr rfl fun j hj => ?_
  have hj' : j < 512 := Finset.mem_range.mp hj
  simp only [term, proj, xrow, gcol, ucol, dcol]
  rw [dblk_at m c t hj' h.isLt]
  congr 2
  · exact Finset.sum_congr rfl fun k hk => by
      rw [xblk_at m c t r.isLt (Finset.mem_range.mp hk), gblk_at m c t (Finset.mem_range.mp hk) hj']
  · exact Finset.sum_congr rfl fun k hk => by
      rw [xblk_at m c t r.isLt (Finset.mem_range.mp hk), ublk_at m c t (Finset.mem_range.mp hk) hj']

/-- THE ACCUMULATOR after point n: the result entry's partial sum over the tiles met so far. -/
theorem acc_eq (c : Dev nD) (n : ℕ) : ∀ (hn : n < cfg0.N) (r : Fin 512) (h : Fin 2048),
    (outsAt0 m c n hn).2 (ix2 r h)
      = mlp ((n % 11 + 1) * 512) (xrow m c n r.val) (gcol m c n) (ucol m c n) (dcol m c n h.val) := by
  induction n using Nat.strong_induction_on with
  | _ n ih =>
    intro hn r h
    have hN : n < 352 := lt_of_lt_of_eq hn (show cfg0.N = 352 from N_0)
    have hstep : (n % 11 + 1) * 512 = n % 11 * 512 + 512 := by omega
    let t : Fin cfg0.N := ⟨n, hn⟩
    by_cases h0 : n % 11 = 0
    · have h1 : ¬ n % 11 = 10 := by omega
      rw [outsAt0_A m c t h0 h1]
      dsimp only
      refine (congrFun (sout_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun hh => h1 ((hcond0_1 t).mp hh)) (iblk m c 0 t) (iblk m c 1 t) (iblk m c 2 t) (iblk m c 3 t)) (ix2 r h)).trans ?_
      refine (pay2_at (xblk m c t) (gblk m c t) (ublk m c t) (k0_pay1 (F := Ideal)) (dblk m c t) r h).trans ?_
      rw [pay1_at, zero_add, tile_eq m c t r h, hstep, mlp_add_tile]
      show _ = mlp (n % 11 * 512) _ _ _ _ + _
      rw [h0, Nat.zero_mul, mlp_zero, zero_add]
    · have hp : n - 1 < n := by omega
      have ihp := ih (n - 1) hp (Nat.lt_of_le_of_lt (Nat.sub_le _ _) hn) r h
      have e1 : ((n - 1) % 11 + 1) * 512 = n % 11 * 512 := by omega
      have e44 : (n - 1) / 44 = n / 44 := by omega
      have e11 : (n - 1) / 11 % 4 = n / 11 % 4 := by omega
      have ex : xrow m c (n - 1) r.val = xrow m c n r.val := by unfold xrow; rw [e44, e11]
      have eg : gcol m c (n - 1) = gcol m c n := by unfold gcol; rw [e44]
      have eu : ucol m c (n - 1) = ucol m c n := by unfold ucol; rw [e44]
      have ed : dcol m c (n - 1) h.val = dcol m c n h.val := by unfold dcol; rw [e44]
      rw [e1, ex, eg, eu, ed] at ihp
      by_cases h1 : n % 11 = 10
      · rw [outsAt0_C m c t h0 h1]
        dsimp only
        refine (congrFun (sout_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) ((hcond0_1 t).mpr h1) (iblk m c 0 t) (iblk m c 1 t) (iblk m c 2 t) (iblk m c 3 t) (outsAt0 m c (t.val - 1) (Nat.lt_of_le_of_lt (Nat.sub_le _ _) t.isLt)).2) (ix2 r h)).trans ?_
        refine (pay2_at (xblk m c t) (gblk m c t) (ublk m c t) (outsAt0 m c (t.val - 1) (Nat.lt_of_le_of_lt (Nat.sub_le _ _) t.isLt)).2 (dblk m c t) r h).trans ?_
        rw [tile_eq m c t r h, hstep, mlp_add_tile]
        exact congrArg (· + _) ihp
      · rw [outsAt0_B m c t h0 h1]
        dsimp only
        refine (congrFun (sout_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) (fun hh => h1 ((hcond0_1 t).mp hh)) (iblk m c 0 t) (iblk m c 1 t) (iblk m c 2 t) (iblk m c 3 t) (outsAt0 m c (t.val - 1) (Nat.lt_of_le_of_lt (Nat.sub_le _ _) t.isLt)).2) (ix2 r h)).trans ?_
        refine (pay2_at (xblk m c t) (gblk m c t) (ublk m c t) (outsAt0 m c (t.val - 1) (Nat.lt_of_le_of_lt (Nat.sub_le _ _) t.isLt)).2 (dblk m c t) r h).trans ?_
        rw [tile_eq m c t r h, hstep, mlp_add_tile]
        exact congrArg (· + _) ihp

/-! ## The result array -/

/-- The output window's block indices, decided over the grid: expert, token tile, and the whole hidden axis. -/
theorem idx4 : ∀ t : Fin cfg0.N, win0_4.index t (0 : Fin 3) = t.val / 44 ∧ win0_4.index t (1 : Fin 3) = t.val / 11 % 4
    ∧ win0_4.index t (2 : Fin 3) = 0 :=
  (by decide +kernel : ∀ t : Fin grid0.N, _)

/-- What the kernel leaves in its result array: every entry the full sum over the extended intermediate axis. -/
def out8 (c : Dev nD) : (⟨3, ![8, 2048, 2048]⟩ : Shape).Idx → EReal := fun i =>
  mlp 5632 (fun k => at3 (xarr m c) (i 0).val (i 1).val k) (fun k ii => at3 (garr m c) (i 0).val k ii)
    (fun k ii => at3 (uarr m c) (i 0).val k ii) (fun ii => at3 (darr m c) (i 0).val ii (i 2).val)

/-- Two blocks with a leading unit axis agree when they agree at every (0, r, h). -/
theorem ext_unit {a b : ℕ} (v w : (⟨3, ![1, a, b]⟩ : Shape).Idx → EReal)
    (hvw : ∀ (r : Fin a) (h : Fin b), v (ix3 0 r h) = w (ix3 0 r h)) : v = w := by
  funext y
  obtain ⟨p, q, s, rfl⟩ : ∃ (p : Fin 1) (q : Fin a) (s : Fin b), y = ix3 p q s := ⟨y 0, y 1, y 2, eq_ix3 y⟩
  obtain rfl : p = 0 := Subsingleton.elim _ _
  exact hvw q s

/-- At a last tile the output block's entry (0, r, h) is the accumulator's entry (r, h). -/
theorem out_eq_acc (c : Dev nD) (t : Fin cfg0.N) (h0 : ¬ t.val % 11 = 0) (h1 : t.val % 11 = 10) (r : Fin 512) (h : Fin 2048) :
    (outsAt0 m c t.val t.isLt).1 (ix3 0 r h) = (outsAt0 m c t.val t.isLt).2 (ix2 r h) := by
  rw [outsAt0_C m c t h0 h1]
  dsimp only
  refine (congrFun (out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) ((hcond0_1 t).mpr h1) (iblk m c 0 t) (iblk m c 1 t) (iblk m c 2 t) (iblk m c 3 t) (outsAt0 m c (t.val - 1) (Nat.lt_of_le_of_lt (Nat.sub_le _ _) t.isLt)).2) (ix3 0 r h)).trans ?_
  refine (pay3_at _ r h).trans ?_
  exact (congrFun (sout_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) ((hcond0_1 t).mpr h1) (iblk m c 0 t) (iblk m c 1 t) (iblk m c 2 t) (iblk m c 3 t) (outsAt0 m c (t.val - 1) (Nat.lt_of_le_of_lt (Nat.sub_le _ _) t.isLt)).2) (ix2 r h)).symm

/-- WHAT A WRITING POINT WRITES BACK is its block of `out8`. -/
theorem flushed_eq (c : Dev nD) (t : Fin cfg0.N) (hf : (cfg0.win 4).flush t = true) :
    (dats m 0 c).flushed 4 t = ((cfg0.win 4).blk t).view.read (Elt Ideal) (out8 m c) := by
  have h1 : t.val % 11 = 10 := (flush0_4 t).mp hf
  have h0 : ¬ t.val % 11 = 0 := by omega
  obtain ⟨i0, i1, i2⟩ := idx4 t
  show (cfg0.win 4).cut (grid0.coords t) ((dats m 0 c).after 4 t) = _
  rw [after0_4]
  refine ext_unit (a := 512) (b := 2048) _ _ fun r h => ?_
  rw [View.read_apply]
  show (outsAt0 m c t.val t.isLt).1 (ix3 0 r h) = _
  rw [out_eq_acc m c t h0 h1 r h, acc_eq m c t.val t.isLt r h]
  simp only [cast_eq]
  have hN := lt352 t
  have hr := r.isLt
  have e : ((cfg0.win 4).blk t).view.emb (ix3 0 r h)
      = (ix3 ⟨t.val / 44, by omega⟩ ⟨t.val / 11 % 4 * 512 + r.val, by omega⟩ h : (⟨3, ![8, 2048, 2048]⟩ : Shape).Idx) := by
    funext a; apply Fin.ext
    match a with
    | ⟨0, _⟩ => show win0_4.index t (0 : Fin 3) * 1 + 1 * 0 = t.val / 44; omega
    | ⟨1, _⟩ => show win0_4.index t (1 : Fin 3) * 512 + 1 * r.val = t.val / 11 % 4 * 512 + r.val; omega
    | ⟨2, _⟩ => show win0_4.index t (2 : Fin 3) * 2048 + 1 * h.val = h.val; omega
  rw [e, show (t.val % 11 + 1) * 512 = 5632 by omega]
  rfl

/-- An index of the result array is in point t's block iff each coordinate is in the block's range on its axis. -/
theorem mem_blk4 (t : Fin cfg0.N) (i : S8x2048x2048.Idx) :
    i ∈ ((cfg0.win 4).blk t).view.set ↔ ∀ a : Fin 3, win0_4.index t a * S1x512x2048.size a ≤ (i a).val
      ∧ (i a).val < win0_4.index t a * S1x512x2048.size a + S1x512x2048.size a := by
  show i ∈ ((View.whole main_v8).slice (win0_4.rect t)).set ↔ _
  rw [View.set_slice_whole, Rect.mem_set_unit]
  exact Iff.rfl

/-- Every entry of the result array lies in the block of its expert's and token tile's last point. -/
theorem cover4 (i : S8x2048x2048.Idx) :
    ∃ t : Fin cfg0.N, (cfg0.win 4).flush t = true ∧ i ∈ ((cfg0.win 4).blk t).view.set := by
  have h0 : (i 0).val < 8 := (i 0).isLt
  have h1 : (i 1).val < 2048 := (i 1).isLt
  have h2 : (i 2).val < 2048 := (i 2).isLt
  have hlt : ((i 0).val * 4 + (i 1).val / 512) * 11 + 10 < cfg0.N := by rw [show cfg0.N = 352 from N_0]; omega
  obtain ⟨e0, e1, e2⟩ := idx4 ⟨_, hlt⟩
  refine ⟨⟨_, hlt⟩, (flush0_4 _).mpr (by show (((i 0).val * 4 + (i 1).val / 512) * 11 + 10) % 11 = 10; omega), ?_⟩
  rw [mem_blk4]
  intro a
  match a with
  | ⟨0, _⟩ =>
    show win0_4.index ⟨_, hlt⟩ (0 : Fin 3) * 1 ≤ (i 0).val ∧ (i 0).val < win0_4.index ⟨_, hlt⟩ (0 : Fin 3) * 1 + 1
    rw [e0]; dsimp only; omega
  | ⟨1, _⟩ =>
    show win0_4.index ⟨_, hlt⟩ (1 : Fin 3) * 512 ≤ (i 1).val ∧ (i 1).val < win0_4.index ⟨_, hlt⟩ (1 : Fin 3) * 512 + 512
    rw [e1]; dsimp only; omega
  | ⟨2, _⟩ =>
    show win0_4.index ⟨_, hlt⟩ (2 : Fin 3) * 2048 ≤ (i 2).val ∧ (i 2).val < win0_4.index ⟨_, hlt⟩ (2 : Fin 3) * 2048 + 2048
    rw [e2]; omega

/-- THE RESULT ARRAY after the region: `out8`. -/
theorem final8 (c : Dev nD) : (dats m 0 c).arrAt 4 cfg0.N = out8 m c :=
  (dats m 0 c).arrAt_eq_of_cover 4 (out8 m c) (flushed_eq m c) cover4

end Cert.KernelIdeal.Mlp

end
-- ==== Proof.HostIn.lean ====
/-
  What the host lines before the region leave in the four arrays the windows stage, entry by entry: the tokens are
  the first argument regrouped by expert (row e · 2048 + R), and each weight array is its argument with the
  intermediate axis extended by 128 zero coordinates (a change of float format is the identity on the extended reals).
-/
import proofs.«173761_j30279519436987_1_alg».proof.Proof.Arrays
import Idealize.ShloMosaic.Lib.KernelVsHost
import Idealize.ShloMosaic.Lib.StableHlo.Run
import Idealize.ShloMosaic.Lib.Pipeline.Value

noncomputable section

namespace Cert.KernelIdeal.Mlp

open Idealize.ShloMosaic Idealize.ShloMosaic.TcCoe Idealize.SL.Sem Idealize.ShloMosaic.ValueIdx
open Cert.KernelIdeal Cert.KernelIdeal.Gen Cert.Swiglu

variable (m : (ℓ : Loc nD τ sig) → Buf (Elt Ideal) ℓ)

/-- Outside its extents an array reads zero. -/
private theorem at3_of_not {a b c : ℕ} (A : (⟨3, ![a, b, c]⟩ : Shape).Idx → EReal) {i j k : ℕ}
    (h : ¬(i < a ∧ j < b ∧ k < c)) : at3 A i j k = 0 := by
  unfold at3; rw [dif_neg h]

/-- The tokens as the region finds them are the first argument regrouped: a change of shape that keeps every
    entry's row-major position. -/
private theorem xarr_term (c : Dev nD) :
    (V m c main_v1 : S8x2048x2048.Idx → EReal)
      = shapeCast S8x2048x2048 (arg0 m c) shapeCasts_S16384x2048_S8x2048x2048 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

theorem xarr_at (c : Dev nD) {e R k : ℕ} (he : e < 8) (hR : R < 2048) (hk : k < 2048) :
    at3 (xarr m c) e R k = at2 (arg0 m c) (e * 2048 + R) k := by
  have hr : e * 2048 + R < 16384 := by omega
  rw [at3_of_lt _ he hR hk, at2_of_lt _ hr hk]
  show (V m c main_v1 : S8x2048x2048.Idx → EReal) _ = _
  rw [xarr_term]
  refine shapeCast_apply _ _ _ _ ?_
  rw [Shape.rowMajor_val_two, Shape.rowMajor_val_three]
  show (e * 2048 + R) * 2048 + k = (e * 2048 + R) * 2048 + k
  rfl

/-- The integer zero converted to a float, as the one entry of a rank-zero array, is the real zero. -/
private theorem padValue_zero :
    (sitofp (F := Ideal) .f32 (constantI S_ 32 0#32) : S_.Idx → EReal) (Shape.Idx.first h_S_) = 0 :=
  sitofp_zero (φ := .f32)

/-- An array whose last axis is extended from 5504 to 5632 by a value that is zero: inside the old extent the
    old entry, beyond it zero; and zero outside the new extents as outside the old. -/
private theorem pad_last_at (x : (⟨3, ![8, 2048, 5504]⟩ : Shape).Idx → EReal) (v : S_.Idx → EReal)
    (hv : v (Shape.Idx.first h_S_) = 0) (e k i : ℕ) :
    at3 (pad S8x2048x5632 ![0, 0, 0] ![0, 0, 128] ![0, 0, 0] x v pads_S8x2048x5504_S8x2048x5632_000_000_01280 h_S_) e k i
      = if i < 5504 then at3 x e k i else 0 := by
  by_cases hin : e < 8 ∧ k < 2048 ∧ i < 5632
  · obtain ⟨he, hk, hi⟩ := hin
    rw [at3_of_lt _ he hk hi]
    by_cases hi' : i < 5504
    · rw [if_pos hi', at3_of_lt _ he hk hi']
      refine pad_apply_of_inside _ _ _ _ _ _ _ _ _ (fun a => ?_)
      match a with
      | ⟨0, _⟩ => show e = 0 + e * (0 + 1); omega
      | ⟨1, _⟩ => show k = 0 + k * (0 + 1); omega
      | ⟨2, _⟩ => show i = 0 + i * (0 + 1); omega
    · rw [if_neg hi']
      refine (pad_apply_of_not_inside _ _ _ _ _ _ _ _ (2 : Fin 3) ?_).trans hv
      show ¬(0 ≤ i ∧ (i - 0) % (0 + 1) = 0 ∧ (i - 0) / (0 + 1) < 5504)
      omega
  · rw [at3_of_not _ hin]
    by_cases hi' : i < 5504
    · rw [if_pos hi', at3_of_not _ (fun h => hin ⟨h.1, h.2.1, by omega⟩)]
    · rw [if_neg hi']

/-- The gate weights as the region finds them: the second argument with its last axis extended. -/
private theorem garr_term (c : Dev nD) :
    (V m c main_v3 : S8x2048x5632.Idx → EReal)
      = pad S8x2048x5632 ![0, 0, 0] ![0, 0, 128] ![0, 0, 0] (arg1 m c)
          (sitofp (F := Ideal) .f32 (constantI S_ 32 0#32)) pads_S8x2048x5504_S8x2048x5632_000_000_01280 h_S_ := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

theorem garr_at (c : Dev nD) (e k i : ℕ) :
    at3 (garr m c) e k i = if i < 5504 then at3 (arg1 m c) e k i else 0 := by
  show at3 (V m c main_v3 : S8x2048x5632.Idx → EReal) e k i = _
  rw [garr_term]
  exact pad_last_at _ _ padValue_zero e k i

/-- The up weights as the region finds them: the third argument with its last axis extended. -/
private theorem uarr_term (c : Dev nD) :
    (V m c main_v5 : S8x2048x5632.Idx → EReal)
      = pad S8x2048x5632 ![0, 0, 0] ![0, 0, 128] ![0, 0, 0] (arg2 m c)
          (sitofp (F := Ideal) .f32 (constantI S_ 32 0#32)) pads_S8x2048x5504_S8x2048x5632_000_000_01280 h_S_ := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

theorem uarr_at (c : Dev nD) (e k i : ℕ) :
    at3 (uarr m c) e k i = if i < 5504 then at3 (arg2 m c) e k i else 0 := by
  show at3 (V m c main_v5 : S8x2048x5632.Idx → EReal) e k i = _
  rw [uarr_term]
  exact pad_last_at _ _ padValue_zero e k i

/-- An array whose middle axis is extended from 5504 to 5632 by a value that is zero. -/
private theorem pad_mid_at (x : (⟨3, ![8, 5504, 2048]⟩ : Shape).Idx → EReal) (v : S_.Idx → EReal)
    (hv : v (Shape.Idx.first h_S_) = 0) (e i h : ℕ) :
    at3 (pad S8x5632x2048 ![0, 0, 0] ![0, 128, 0] ![0, 0, 0] x v pads_S8x5504x2048_S8x5632x2048_000_01280_000 h_S_) e i h
      = if i < 5504 then at3 x e i h else 0 := by
  by_cases hin : e < 8 ∧ i < 5632 ∧ h < 2048
  · obtain ⟨he, hi, hh⟩ := hin
    rw [at3_of_lt _ he hi hh]
    by_cases hi' : i < 5504
    · rw [if_pos hi', at3_of_lt _ he hi' hh]
      refine pad_apply_of_inside _ _ _ _ _ _ _ _ _ (fun a => ?_)
      match a with
      | ⟨0, _⟩ => show e = 0 + e * (0 + 1); omega
      | ⟨1, _⟩ => show i = 0 + i * (0 + 1); omega
      | ⟨2, _⟩ => show h = 0 + h * (0 + 1); omega
    · rw [if_neg hi']
      refine (pad_apply_of_not_inside _ _ _ _ _ _ _ _ (1 : Fin 3) ?_).trans hv
      show ¬(0 ≤ i ∧ (i - 0) % (0 + 1) = 0 ∧ (i - 0) / (0 + 1) < 5504)
      omega
  · rw [at3_of_not _ hin]
    by_cases hi' : i < 5504
    · rw [if_pos hi', at3_of_not _ (fun h' => hin ⟨h'.1, by omega, h'.2.2⟩)]
    · rw [if_neg hi']

/-- The down weights as the region finds them: the fourth argument with its middle axis extended. -/
private theorem darr_term (c : Dev nD) :
    (V m c main_v7 : S8x5632x2048.Idx → EReal)
      = pad S8x5632x2048 ![0, 0, 0] ![0, 128, 0] ![0, 0, 0] (arg3 m c)
          (sitofp (F := Ideal) .f32 (constantI S_ 32 0#32)) pads_S8x5504x2048_S8x5632x2048_000_01280_000 h_S_ := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

theorem darr_at (c : Dev nD) (e i h : ℕ) :
    at3 (darr m c) e i h = if i < 5504 then at3 (arg3 m c) e i h else 0 := by
  show at3 (V m c main_v7 : S8x5632x2048.Idx → EReal) e i h = _
  rw [darr_term]
  exact pad_mid_at _ _ padValue_zero e i h

end Cert.KernelIdeal.Mlp

end
-- ==== Proof.KernelValue.lean ====
/-
  The kernel program's run, read.  After the region the result array holds, at every entry, the full sum over the
  extended intermediate axis; the closing reshape lists the experts' token rows one after another, so row p of the
  result is token p % 2048 of expert p / 2048.  The 128 added intermediate coordinates carry zero gate and up weights
  and contribute nothing, the tokens are the first argument's rows, and the weights below coordinate 5504 are the
  arguments': the result is the common result function of the four float arguments.
-/
import proofs.«173761_j30279519436987_1_alg».proof.Proof.Accum
import proofs.«173761_j30279519436987_1_alg».proof.Proof.HostIn
import Idealize.ShloMosaic.Lib.StableHlo.Run

noncomputable section

namespace Cert.KernelIdeal.Mlp

open Idealize.ShloMosaic Idealize.ShloMosaic.TcCoe Idealize.SL.Sem Idealize.ShloMosaic.ValueIdx
open Cert.KernelIdeal Cert.KernelIdeal.Gen Cert.Swiglu

open Idealize.ShloMosaic.Pipeline (Dat)

variable (m : (ℓ : Loc nD τ sig) → Buf (Elt Ideal) ℓ) (ρ : Dev nD → PrngReg)

/-- The reshaped result array, entry by entry, is the common result function of the arguments. -/
theorem out8_reshaped (c : Dev nD) :
    shapeCast S16384x2048 (out8 m c) shapeCasts_S8x2048x2048_S16384x2048
      = result (arg0 m c) (arg1 m c) (arg2 m c) (arg3 m c) := by
  funext j
  have hj0 : (j 0).val < 16384 := (j 0).isLt
  have hj1 : (j 1).val < 2048 := (j 1).isLt
  refine (shapeCast_apply (out8 m c) shapeCasts_S8x2048x2048_S16384x2048 j
    (ix3 ⟨(j 0).val / 2048, by omega⟩ ⟨(j 0).val % 2048, by omega⟩ (j 1)) (by
      rw [Shape.rowMajor_val_three, Shape.rowMajor_val_two]
      show ((j 0).val / 2048 * 2048 + (j 0).val % 2048) * 2048 + (j 1).val = (j 0).val * 2048 + (j 1).val
      omega)).trans ?_
  show mlp 5632 (fun k => at3 (xarr m c) ((j 0).val / 2048) ((j 0).val % 2048) k)
      (fun k ii => at3 (garr m c) ((j 0).val / 2048) k ii) (fun k ii => at3 (uarr m c) ((j 0).val / 2048) k ii)
      (fun ii => at3 (darr m c) ((j 0).val / 2048) ii (j 1).val) = _
  refine (mlp_pad 5504 128 _ _ _ _ (fun k i hi => by rw [garr_at, if_neg (by omega)])
    (fun k i hi => by rw [uarr_at, if_neg (by omega)])).trans ?_
  unfold result
  refine mlp_congr 5504 _ _ _ _ _ _ _ _ (fun k hk => ?_) (fun k i hk hi => ?_) (fun k i hk hi => ?_) (fun i hi => ?_)
  · rw [xarr_at m c (by omega) (by omega) hk]
    congr 1
    omega
  · rw [garr_at, if_pos hi]
  · rw [uarr_at, if_pos hi]
  · rw [darr_at, if_pos hi]

/-- What the closing reshape leaves in the program's result. -/
theorem tail_v9 (c : Dev nD) :
    Pipeline.afterTail₀ cfgs (dats m) 0 (V0 m) [hostOps1] c main_v9
      = shapeCast S16384x2048 (out8 m c) shapeCasts_S8x2048x2048_S16384x2048 := by
  unfold Pipeline.afterTail₀
  show StableHlo.after hostOps1 _ (Proc.devRef .tc main_v9) = _
  after_results
  have ew : Pipeline.withArrays (cfgs 0).spec c (V0 m c) (fun w => (dats m 0 c).arrAt w (cfgs 0).N) (Proc.devRef .tc main_v8)
      = out8 m c :=
    (Pipeline.withArrays_arr spec0 launch0.win.arr_inj c _ _ 4).trans (final8 m c)
  funext i
  exact congrFun (congrArg (fun v => shapeCast S16384x2048 v shapeCasts_S8x2048x2048_S16384x2048) ew) i

/-- THE KERNEL PROGRAM'S RUN: every weakly fair execution ends with the result at the common result function of the
    float arguments, and every argument as it was. -/
theorem run : θ_run defs (onTc (τ := τ) (main (F := Ideal))) ⟨m, fun _ => 0, ρ⟩ fun r => ∀ c : Dev nD,
      r.2.mem ((c.tc : Thread nD τ).loc main_v9) = result (arg0 m c) (arg1 m c) (arg2 m c) (arg3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(((h c).2 main_v9 (Pipeline.mem_restRefs_of main_v9 (by decide) (by decide))).trans (tail_v9 m c)).trans (out8_reshaped m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Mlp

end
-- ==== Proof.RefValue.lean ====
/-
  The reference, read entry by entry over the extended reals, is the common result function: its reshape regroups the
  tokens by expert, its two batched products are the projections, its spelled-out logistic is the logistic function,
  and its last batched product is the sum over the 5504 intermediate coordinates.
-/
import proofs.«173761_j30279519436987_1_alg».proof.Proof.Gen.ReferenceIdeal.Run
import proofs.«173761_j30279519436987_1_alg».proof.Proof.Gen.ReferenceIdeal.Read
import proofs.«173761_j30279519436987_1_alg».proof.Proof.SwigluSum
import Idealize.ShloMosaic.Lib.IdealHost

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read Cert.Swiglu

/-- A regrouped token: entry (e, t, k) of the tokens grouped by expert is entry (e·2048 + t, k) of the token matrix. -/
theorem tokens_at (x0 : (⟨2, ![16384, 2048]⟩ : Shape).Idx → EReal) (i : (⟨3, ![8, 2048, 2048]⟩ : Shape).Idx) :
    val_main_v0 (F := Ideal) x0 i = at2 x0 ((i 0).val * 2048 + (i 1).val) (i 2).val := by
  have h0 : (i 0).val < 8 := (i 0).isLt
  have h1 : (i 1).val < 2048 := (i 1).isLt
  have h2 : (i 2).val < 2048 := (i 2).isLt
  rw [val_main_v0_apply, at2_of_lt x0 (show (i 0).val * 2048 + (i 1).val < 16384 by omega) h2]
  refine congrArg x0 (funext fun a => Fin.ext ?_)
  match a with
  | ⟨0, _⟩ => show (((i 0).val * 2048 + (i 1).val) * 2048 + (i 2).val) / 2048 = (i 0).val * 2048 + (i 1).val; omega
  | ⟨1, _⟩ => show (((i 0).val * 2048 + (i 1).val) * 2048 + (i 2).val) % 2048 = (i 2).val; omega

/-- The first batched product, entry (e, t, c): token e·2048 + t projected on column c of expert e's first weight. -/
theorem gate_proj_at (x0 : (⟨2, ![16384, 2048]⟩ : Shape).Idx → EReal) (x1 : (⟨3, ![8, 2048, 5504]⟩ : Shape).Idx → EReal)
    (i : (⟨3, ![8, 2048, 5504]⟩ : Shape).Idx) :
    val_main_v1 (F := Ideal) x0 x1 i
      = proj (fun k => at2 x0 ((i 0).val * 2048 + (i 1).val) k) (fun k c => at3 x1 (i 0).val k c) (i 2).val := by
  rw [val_main_v1_apply]
  unfold proj
  rw [Finset.sum_range]
  refine Finset.sum_congr rfl fun k _ => ?_
  rw [tokens_at]
  show at2 x0 ((i 0).val * 2048 + (i 1).val) k.val * x1 (ridx_main_v1 i k)
    = at2 x0 ((i 0).val * 2048 + (i 1).val) k.val * at3 x1 (i 0).val k.val (i 2).val
  rw [at3_fin x1 (i 0) k (i 2)]
  refine congrArg (_ * ·) (congrArg x1 (funext fun a => ?_))
  match a with
  | ⟨0, _⟩ => rfl
  | ⟨1, _⟩ => rfl
  | ⟨2, _⟩ => rfl

/-- The second batched product, entry (e, t, c): token e·2048 + t projected on column c of expert e's second weight. -/
theorem up_proj_at (x0 : (⟨2, ![16384, 2048]⟩ : Shape).Idx → EReal) (x2 : (⟨3, ![8, 2048, 5504]⟩ : Shape).Idx → EReal)
    (i : (⟨3, ![8, 2048, 5504]⟩ : Shape).Idx) :
    val_main_v2 (F := Ideal) x0 x2 i
      = proj (fun k => at2 x0 ((i 0).val * 2048 + (i 1).val) k) (fun k c => at3 x2 (i 0).val k c) (i 2).val := by
  rw [val_main_v2_apply]
  unfold proj
  rw [Finset.sum_range]
  refine Finset.sum_congr rfl fun k _ => ?_
  rw [tokens_at]
  show at2 x0 ((i 0).val * 2048 + (i 1).val) k.val * x2 (ridx_main_v2 i k)
    = at2 x0 ((i 0).val * 2048 + (i 1).val) k.val * at3 x2 (i 0).val k.val (i 2).val
  rw [at3_fin x2 (i 0) k (i 2)]
  refine congrArg (_ * ·) (congrArg x2 (funext fun a => ?_))
  match a with
  | ⟨0, _⟩ => rfl
  | ⟨1, _⟩ => rfl
  | ⟨2, _⟩ => rfl

/-- The activation spelled as x · (1 / (1 + e^{-x})), times the second projection, is the gate of the two projections. -/
theorem gated_at (x0 : (⟨2, ![16384, 2048]⟩ : Shape).Idx → EReal) (x1 x2 : (⟨3, ![8, 2048, 5504]⟩ : Shape).Idx → EReal)
    (i : (⟨3, ![8, 2048, 5504]⟩ : Shape).Idx) :
    val_main_v4 (F := Ideal) x0 x1 x2 i = gate (val_main_v1 (F := Ideal) x0 x1 i) (val_main_v2 (F := Ideal) x0 x2 i) := by
  rw [val_main_v4_apply, val_main_v3_apply, val_main_call0_v5_apply, val_main_call0_v4_apply, val_main_call0_cst_0_apply,
    val_main_call0_v3_apply, val_main_call0_v2_apply, val_main_call0_cst_apply, val_main_call0_v1_apply,
    val_main_call0_v0_apply]
  unfold gate Ideal.logistic
  rw [Ideal.ofBits_def, Ideal.ofBits_one_f32]
  rfl

/-- The last batched product, entry (e, t, h): the 5504 gated projections of token e·2048 + t, each times expert e's
    down weight at (c, h), summed. -/
theorem down_at (x0 : (⟨2, ![16384, 2048]⟩ : Shape).Idx → EReal) (x1 x2 : (⟨3, ![8, 2048, 5504]⟩ : Shape).Idx → EReal)
    (x3 : (⟨3, ![8, 5504, 2048]⟩ : Shape).Idx → EReal) (i : (⟨3, ![8, 2048, 2048]⟩ : Shape).Idx) :
    val_main_v5 (F := Ideal) x0 x1 x2 x3 i
      = mlp 5504 (fun k => at2 x0 ((i 0).val * 2048 + (i 1).val) k) (fun k c => at3 x1 (i 0).val k c)
          (fun k c => at3 x2 (i 0).val k c) (fun c => at3 x3 (i 0).val c (i 2).val) := by
  rw [val_main_v5_apply]
  unfold mlp
  rw [Finset.sum_range]
  refine Finset.sum_congr rfl fun c _ => ?_
  rw [gated_at, gate_proj_at, up_proj_at]
  show gate (proj (fun k => at2 x0 ((i 0).val * 2048 + (i 1).val) k) (fun k c => at3 x1 (i 0).val k c) c.val)
        (proj (fun k => at2 x0 ((i 0).val * 2048 + (i 1).val) k) (fun k c => at3 x2 (i 0).val k c) c.val)
        * x3 (ridx_main_v5 i c)
    = gate (proj (fun k => at2 x0 ((i 0).val * 2048 + (i 1).val) k) (fun k c => at3 x1 (i 0).val k c) c.val)
        (proj (fun k => at2 x0 ((i 0).val * 2048 + (i 1).val) k) (fun k c => at3 x2 (i 0).val k c) c.val)
        * at3 x3 (i 0).val c.val (i 2).val
  rw [at3_fin x3 (i 0) c (i 2)]
  refine congrArg (_ * ·) (congrArg x3 (funext fun a => ?_))
  match a with
  | ⟨0, _⟩ => rfl
  | ⟨1, _⟩ => rfl
  | ⟨2, _⟩ => rfl

theorem ref_eq (x0 : (⟨2, ![16384, 2048]⟩ : Shape).Idx → EReal) (x1 x2 : (⟨3, ![8, 2048, 5504]⟩ : Shape).Idx → EReal)
    (x3 : (⟨3, ![8, 5504, 2048]⟩ : Shape).Idx → EReal) :
    val_main_v6 (F := Ideal) x0 x1 x2 x3 = result x0 x1 x2 x3 := by
  funext j
  have hp : (j 0).val < 16384 := (j 0).isLt
  have hq : (j 1).val < 2048 := (j 1).isLt
  -- row p of the token matrix is token p % 2048 of expert p / 2048, and (p / 2048) · 2048 + p % 2048 = p
  have e0 : (idx_main_v6 j 0).val = (j 0).val / 2048 := by
    show ((j 0).val * 2048 + (j 1).val) / 4194304 = (j 0).val / 2048; omega
  have e1 : (idx_main_v6 j 0).val * 2048 + (idx_main_v6 j 1).val = (j 0).val := by
    show ((j 0).val * 2048 + (j 1).val) / 4194304 * 2048 + ((j 0).val * 2048 + (j 1).val) / 2048 % 2048 = (j 0).val; omega
  have e2 : (idx_main_v6 j 2).val = (j 1).val := by
    show ((j 0).val * 2048 + (j 1).val) % 2048 = (j 1).val; omega
  rw [val_main_v6_apply, down_at, e1, e0, e2]
  rfl

end Cert.ReferenceIdeal.RefValue

end
-- ==== Proof.lean ====
/-
  A grouped SwiGLU projection over eight experts: sixteen thousand token rows, 2048 each per expert, are projected by
  the expert's gate and up weights onto 5504 intermediate coordinates, gated as (g · σ(g)) · u with σ the logistic
  function, and projected back by the expert's down weights.

  The kernel regroups the tokens by expert, extends the intermediate axis of the three weight arrays from 5504 to
  5632 coordinates with zeros, and walks a grid of (expert, token tile, intermediate tile): at each point it adds to an
  accumulator the tile's 512 terms of the down projection, zeroing the accumulator at the first intermediate tile and
  copying it to the output block at the last.  The reference computes the same three batched products whole, with the
  logistic function spelled out as 1 / (1 + e^(−g)).

  Over the extended reals (every float an extended real, every operation exact, a change of float format the
  identity) both results are, entry by entry, the sum over the 5504 intermediate coordinates of the gated
  projections times the down weight: the kernel's tile-by-tile accumulation is a regrouping of that sum, which needs
  only that addition is associative and commutative, and the 128 added coordinates contribute zero because a zero
  factor annihilates.  Neither step uses that the inputs are finite.

  The three programs' runs: the kernel's two frames are the generated ones; the reference's is its generated run with
  the result dropped.  The idealization rewrote nothing, so it preserves the kernel trivially.
-/
import proofs.«173761_j30279519436987_1_alg».proof.Defs
import proofs.«173761_j30279519436987_1_alg».proof.Proof.Gen.Kernel
import proofs.«173761_j30279519436987_1_alg».proof.Proof.Gen.Kernel.Skeleton
import proofs.«173761_j30279519436987_1_alg».proof.Proof.Gen.Kernel.Launch
import proofs.«173761_j30279519436987_1_alg».proof.Proof.Gen.Kernel.Points
import proofs.«173761_j30279519436987_1_alg».proof.Proof.Gen.Kernel.Frame
import proofs.«173761_j30279519436987_1_alg».proof.Proof.Gen.KernelIdeal
import proofs.«173761_j30279519436987_1_alg».proof.Proof.Gen.KernelIdeal.Skeleton
import proofs.«173761_j30279519436987_1_alg».proof.Proof.Gen.KernelIdeal.Launch
import proofs.«173761_j30279519436987_1_alg».proof.Proof.Gen.KernelIdeal.Points
import proofs.«173761_j30279519436987_1_alg».proof.Proof.Gen.KernelIdeal.Frame
import proofs.«173761_j30279519436987_1_alg».proof.Proof.Gen.ReferenceIdeal
import proofs.«173761_j30279519436987_1_alg».proof.Proof.Gen.ReferenceIdeal.Run
import proofs.«173761_j30279519436987_1_alg».proof.Proof.Gen.ReferenceIdeal.Read
import proofs.«173761_j30279519436987_1_alg».proof.Proof.Gen.Pre_finite_inputs
import proofs.«173761_j30279519436987_1_alg».proof.Proof.KernelValue
import proofs.«173761_j30279519436987_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs: its run read back, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end at the common result function of arguments that agree. -/
theorem algebraic : Cert.algebraic_KernelIdeal_ReferenceIdeal := by
  intro m ρ m' ρ' _ hagree
  refine ⟨fun c => Cert.Swiglu.result (Cert.KernelIdeal.Mlp.arg0 m c) (Cert.KernelIdeal.Mlp.arg1 m c)
    (Cert.KernelIdeal.Mlp.arg2 m c) (Cert.KernelIdeal.Mlp.arg3 m c), Cert.KernelIdeal.Mlp.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.ref_eq, (hagree c).1, (hagree c).2.1,
    (hagree c).2.2.1, (hagree c).2.2.2.1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
